-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S2048 : Shape := ⟨1, ![2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x8192x2048 .f32) (main_arg1 : FVec F S2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S4x8192x2048 : Shape := ⟨3, ![4, 8192, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S32768x2048, .f32⟩
  | .hbm, ⟨3, _⟩ => ⟨S1x2048, .f32⟩
  | .hbm, ⟨4, _⟩ => ⟨S32768x2048, .f32⟩
  | .hbm, ⟨5, _⟩ => ⟨S4x8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8192x2048_S32768x2048 : S4x8192x2048.ShapeCasts S32768x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S32768x2048_S4x8192x2048 : S32768x2048.ShapeCasts S4x8192x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S32768x2048.size a
  hwx0_2 : ∀ i : grid0.Coords, EltTy.bits .f32 = 32 ∨ (Rect.block (s := S32768x2048) S512x2048.size (cc0_transform_2 i) (hinb0_2 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x8192x2048, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S4x8192x1, .f32⟩
  | .hbm, ⟨13, _⟩ => ⟨S4x8192x2048, .f32⟩
  | .hbm, ⟨14, _⟩ => ⟨S4x8192x2048, .f32⟩
  | .hbm, ⟨15, _⟩ => ⟨S1x1x2048, .f32⟩
  | .hbm, ⟨16, _⟩ => ⟨S4x8192x2048, .f32⟩
  | .hbm, ⟨17, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4x8192x2048_S4x8192_d2 : S4x8192x2048.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  bcast_S2048_S1x1x2048_2 : S2048.BroadcastsInDim S1x1x2048 (![2] : Fin 1 → Fin S1x1x2048.rank)
  bcast_S1x1x2048_S4x8192x2048_0_1_2 : S1x1x2048.BroadcastsInDim S4x8192x2048 (![0, 1, 2] : Fin 3 → Fin S4x8192x2048.rank)

variable [Facts₀]

class Facts : Prop extends Facts₀ where

variable [Facts]
-- ==== Proof.LibKeepdims.lean ====
/-
  Keepdims forms read at an index, for rank-2 arrays written by coordinates.

  A reduction over the last axis that keeps the axis (a row statistic laid back beside its row) prints as three steps:
  the lane sum of an `[a, b]` array into `[a]`, a shape cast of that vector to the column `[a, 1]`, and a broadcast of
  the column over `[a, b]`. Each is read here at an index given by its coordinates: the sum at row `p` is the sum over
  `k` of the array at `(p, k)`; the column at `(p, 0)` is the vector at `p`; the broadcast at `(p, c)` is the column at
  `(p, 0)`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector cast to the column `[a, 1]` reads, at `(i, u)`, the vector at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The lane sum of an `[a, b]` array over its last axis, on the extended reals, is at row `p` the sum over `k` of the
    array at `(p, k)`. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

end Cert.LibKeepdims

end
-- ==== Proof.RmsNorm.lean ====
/-
  RMS normalisation of the rows of an array, on the extended reals.

  A row `x : Fin 2048 → EReal` is scaled by `(Σₖ xₖ² / 2048 + ε)^(-1/2)` — the mean of its squares as the sum divided by
  the float literal 2048, `ε` the float literal nearest 1e-6, the inverse square root the extended reals' — and then
  by a weight per feature: entry `d` is `(x d · scale) · w d`, in that grouping.  The same function is stated of the
  flat array of 32768 rows (weight a `[1, 2048]` row) and of the `[4, 8192, 2048]` array (weight a `[2048]` vector),
  and the two agree through the row-major re-layout of both arrays: row `(b, s)` of the cube is row `b · 8192 + s` of
  the flat array.
-/
import Idealize.ShloMosaic.PureOps.Ideal
import Idealize.ShloMosaic.Lib.ValueLayout

noncomputable section

namespace Cert.RmsNorm

open Idealize.ShloMosaic Idealize.ShloMosaic.ValueIdx

/-- The scale of one row: the inverse square root of the mean of its squares plus `ε`. -/
def rowScale (row : Fin 2048 → EReal) : EReal :=
  Ideal.rsqrt (Ideal.div (∑ k : Fin 2048, row k * row k) (Ideal.ofBits .f32 0x45000000#32) + Ideal.ofBits .f32 0x358637BD#32)

/-- Entry `d` of the normalised row: the entry scaled, then weighted. -/
def entry (row w : Fin 2048 → EReal) (d : Fin 2048) : EReal := row d * rowScale row * w d

/-- The normalised flat array: row `r` of `x` normalised, weighted by the one row of `w`. -/
def flat (x : (⟨2, ![32768, 2048]⟩ : Shape).Idx → EReal) (w : (⟨2, ![1, 2048]⟩ : Shape).Idx → EReal) :
    (⟨2, ![32768, 2048]⟩ : Shape).Idx → EReal :=
  fun i => entry (fun k => x (ix2 (i 0 : Fin 32768) k)) (fun k => w (ix2 (0 : Fin 1) k)) (i 1 : Fin 2048)

theorem flat_apply (x : (⟨2, ![32768, 2048]⟩ : Shape).Idx → EReal) (w : (⟨2, ![1, 2048]⟩ : Shape).Idx → EReal)
    (r : Fin 32768) (d : Fin 2048) :
    flat x w (ix2 r d) = entry (fun k => x (ix2 r k)) (fun k => w (ix2 (0 : Fin 1) k)) d := rfl

/-- The normalised cube: row `(b, s)` of `x` normalised, weighted by `w`. -/
def cube (x : (⟨3, ![4, 8192, 2048]⟩ : Shape).Idx → EReal) (w : (⟨1, ![2048]⟩ : Shape).Idx → EReal) :
    (⟨3, ![4, 8192, 2048]⟩ : Shape).Idx → EReal :=
  fun i => entry (fun k => x (ix3 (i 0 : Fin 4) (i 1 : Fin 8192) k)) (fun k => w (ix1 k)) (i 2 : Fin 2048)

theorem cube_apply (x : (⟨3, ![4, 8192, 2048]⟩ : Shape).Idx → EReal) (w : (⟨1, ![2048]⟩ : Shape).Idx → EReal)
    (b : Fin 4) (s : Fin 8192) (d : Fin 2048) :
    cube x w (ix3 b s d) = entry (fun k => x (ix3 b s k)) (fun k => w (ix1 k)) d := rfl

/-- The flat row that holds the cube's row `(b, s)`. -/
def flatRow (b : Fin 4) (s : Fin 8192) : Fin 32768 := ⟨b.val * 8192 + s.val, by have := b.isLt; have := s.isLt; omega⟩

/-- The cube re-laid flat reads, at `(b · 8192 + s, k)`, the cube at `(b, s, k)`. -/
theorem flatten_apply {α : Type} (x : (⟨3, ![4, 8192, 2048]⟩ : Shape).Idx → α)
    (h : (⟨3, ![4, 8192, 2048]⟩ : Shape).ShapeCasts ⟨2, ![32768, 2048]⟩) (b : Fin 4) (s : Fin 8192) (k : Fin 2048) :
    shapeCast ⟨2, ![32768, 2048]⟩ x h (ix2 (flatRow b s) k) = x (ix3 b s k) :=
  shapeCast_apply x h _ _ (by
    rw [Shape.rowMajor_val_three, Shape.rowMajor_val_two]
    rfl)

/-- A flat array re-laid as the cube reads, at `(b, s, d)`, the flat array at `(b · 8192 + s, d)`. -/
theorem unflatten_apply {α : Type} (y : (⟨2, ![32768, 2048]⟩ : Shape).Idx → α)
    (h : (⟨2, ![32768, 2048]⟩ : Shape).ShapeCasts ⟨3, ![4, 8192, 2048]⟩) (b : Fin 4) (s : Fin 8192) (d : Fin 2048) :
    shapeCast ⟨3, ![4, 8192, 2048]⟩ y h (ix3 b s d) = y (ix2 (flatRow b s) d) :=
  shapeCast_apply y h _ _ (by
    rw [Shape.rowMajor_val_three, Shape.rowMajor_val_two]
    rfl)

/-- NORMALISING THE FLAT RE-LAYOUT AND RE-LAYING THE RESULT AS A CUBE IS NORMALISING THE CUBE: at `(b, s, d)` both are
    the entry `d` of row `(b, s)` normalised, since the flat row `b · 8192 + s` is that row and the weight's one row is
    the weight. -/
theorem cube_of_flat (x : (⟨3, ![4, 8192, 2048]⟩ : Shape).Idx → EReal) (w : (⟨1, ![2048]⟩ : Shape).Idx → EReal)
    (hx : (⟨3, ![4, 8192, 2048]⟩ : Shape).ShapeCasts ⟨2, ![32768, 2048]⟩)
    (hw : (⟨1, ![2048]⟩ : Shape).ShapeCasts ⟨2, ![1, 2048]⟩)
    (hy : (⟨2, ![32768, 2048]⟩ : Shape).ShapeCasts ⟨3, ![4, 8192, 2048]⟩) :
    shapeCast ⟨3, ![4, 8192, 2048]⟩
      (flat (shapeCast ⟨2, ![32768, 2048]⟩ x hx) (shapeCast ⟨2, ![1, 2048]⟩ w hw)) hy = cube x w := by
  funext i
  obtain ⟨b, s, d, rfl⟩ : ∃ (b : Fin 4) (s : Fin 8192) (d : Fin 2048), i = ix3 b s d := ⟨i 0, i 1, i 2, eq_ix3 i⟩
  rw [unflatten_apply, flat_apply, cube_apply]
  congr 1
  · funext k; exact flatten_apply x hx b s k
  · funext k; exact shapeCast_a_1a_apply w hw (0 : Fin 1) k

end Cert.RmsNorm

end
-- ==== Proof.BlockNorm.lean ====
/-
  The kernel body's stored value, entry by entry: at row `p` and feature `q` of a 512-row block it is the entry `q` of
  the block's row `p` normalised (`Cert.RmsNorm.entry`) with the weight block's one row.
-/
import proofs.«165547_g76312978916077_feedfinal_358_2_alg».proof.Proof.Gen.KernelIdeal.Skeleton
import proofs.«165547_g76312978916077_feedfinal_358_2_alg».proof.Proof.LibKeepdims
import proofs.«165547_g76312978916077_feedfinal_358_2_alg».proof.Proof.RmsNorm

noncomputable section

namespace Cert.KernelIdeal.BlockNorm

open Cert.KernelIdeal Cert.KernelIdeal.Gen Idealize.ShloMosaic Idealize.ShloMosaic.ValueIdx

/-- The body squares the block, sums each row's squares over the lanes, lays the sums as a column, divides by 2048,
    adds `ε`, takes the inverse square root, broadcasts that column back over the block, scales the block by it and
    then by the weight row broadcast over the rows: at `(p, q)` that is `(x (p, q) · scale (row p)) · w (0, q)`. -/
theorem pay_apply (x0 : FVec Ideal S512x2048 .f32) (x1 : FVec Ideal S1x2048 .f32) (p : Fin 512) (q : Fin 2048) :
    k0_pay1 (F := Ideal) x0 x1 (ix2 p q)
      = Cert.RmsNorm.entry (fun k => x0 (ix2 p k)) (fun k => x1 (ix2 (0 : Fin 1) k)) q := by
  unfold k0_pay1
  dsimp only
  simp only [shapeCast_self]
  rw [mulf_apply, mulf_apply, Cert.LibKeepdims.broadcastTo_a1_ab_apply, broadcastTo_1b_ab_apply]
  -- the column's entry of row `p` is the lane sum of the squared block at `p`: the sum over `k` of `x0 (p, k)²`
  have hsum : shapeCast S512x1 (multiReduction .add [1] S512 (mulf x0 x0) 0x00000000#32 reduces_S512x2048_S512 (.inl rfl) rfl)
        shapeCasts_S512_S512x1 (ix2 p (0 : Fin 1)) = ∑ k : Fin 2048, x0 (ix2 p k) * x0 (ix2 p k) :=
    (Cert.LibKeepdims.shapeCast_a_a1_apply _ _ p 0).trans (Cert.LibKeepdims.rowSum_apply (mulf x0 x0) _ _ _ _ p)
  unfold Cert.RmsNorm.entry Cert.RmsNorm.rowScale
  exact congrArg (fun s => x0 (ix2 p q)
    * Ideal.rsqrt (Ideal.div s (Ideal.ofBits .f32 0x45000000#32) + Ideal.ofBits .f32 0x358637BD#32) * x1 (ix2 (0 : Fin 1) q)) hsum

end Cert.KernelIdeal.BlockNorm

end
-- ==== Proof.FlatValue.lean ====
/-
  What the kernel leaves in its flat result array, at the extended reals: the flat array of the region's first operand
  normalised row by row (`Cert.RmsNorm.flat`).

  Grid point `t` stages rows `512 t … 512 t + 511` of the first operand (all 2048 features), the one row of the weight
  operand, and writes the same rows of the result.  A row's scale needs only that row, and a block holds whole rows,
  so what point `t` writes is the block of the normalised array; the 64 blocks cover the 32768 rows.
-/
import proofs.«165547_g76312978916077_feedfinal_358_2_alg».proof.Proof.Gen.KernelIdeal.Frame
import proofs.«165547_g76312978916077_feedfinal_358_2_alg».proof.Proof.BlockNorm
import Idealize.ShloMosaic.Lib.Pipeline.Value

noncomputable section

namespace Cert.KernelIdeal.FlatValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 64 grid points: the first operand's block and the result's block are the same
    block of rows, `t`-th of 64, over all features; the weight's block is its one block. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 63 :=
  (by decide +kernel : ∀ t : Fin grid0.N, _)

/-- Every one of the 64 row blocks is some point's. -/
theorem block_onto : ∀ q0 : Fin 64, ∃ t : Fin cfg0.N, win0_2.index t = ![q0.val, 0] :=
  (by decide +kernel : ∀ q0 : Fin 64, ∃ t : Fin grid0.N, win0_2.index t = ![q0.val, 0])

/-- WHAT POINT `t` WRITES BACK is block `t` of the normalised flat array. -/
theorem flushed_eq (c : Dev nD) (t : Fin cfg0.N) :
    (dats m 0 c).flushed 2 t
      = ((cfg0.win 2).blk t).view.read (Elt Ideal) (Cert.RmsNorm.flat (V m c main_v0) (V m c main_v1)) := by
  show (cfg0.win 2).cut (grid0.coords t) ((dats m 0 c).after 2 t) = _
  rw [after0_2]
  unfold out0_2
  rw [View.canon_unit_zero zero_offsets]
  simp only [View.ld_unit_zero (S := S512x2048) zero_offsets, View.ld_unit_zero (S := S1x2048) zero_offsets]
  obtain ⟨e0, e1, e2, e3, e4, e5⟩ := block_indices t
  funext j
  obtain ⟨p, q, rfl⟩ : ∃ (p : Fin 512) (q : Fin 2048), j = ix2 p q := ⟨j 0, j 1, eq_ix2 j⟩
  -- block row `p` of point `t` is array row `512 · (block index) + p`
  have hr : win0_2.index t (0 : Fin 2) * 512 + p.val < 32768 := by have := p.isLt; omega
  show k0_pay1 (F := Ideal) (iblk m c 0 t) (iblk m c 1 t) (ix2 p q)
    = Cert.RmsNorm.flat (V m c main_v0) (V m c main_v1) (((cfg0.win 2).blk t).view.emb (ix2 p q))
  have hemb : ((cfg0.win 2).blk t).view.emb (ix2 p q)
      = ix2 (⟨win0_2.index t (0 : Fin 2) * 512 + p.val, hr⟩ : Fin 32768) q := by
    funext a; apply Fin.ext
    match a with
    | ⟨0, _⟩ => show win0_2.index t (0 : Fin 2) * 512 + 1 * p.val = win0_2.index t (0 : Fin 2) * 512 + p.val; omega
    | ⟨1, _⟩ => show win0_2.index t (1 : Fin 2) * 2048 + 1 * q.val = q.val; omega
  rw [hemb, Cert.RmsNorm.flat_apply]
  refine (BlockNorm.pay_apply (iblk m c 0 t) (iblk m c 1 t) p q).trans ?_
  -- the staged block's row `p` is that array row, feature by feature
  have hx : (fun k : Fin 2048 => (iblk m c 0 t : FVec Ideal S512x2048 .f32) (ix2 p k))
      = fun k : Fin 2048 => V m c main_v0 (ix2 (⟨win0_2.index t (0 : Fin 2) * 512 + p.val, hr⟩ : Fin 32768) k) := by
    funext k
    show V m c main_v0 (((cfg0.win 0).blk t).view.emb (ix2 p k))
      = V m c main_v0 (ix2 (⟨win0_2.index t (0 : Fin 2) * 512 + p.val, hr⟩ : Fin 32768) k)
    refine congrArg (V m c main_v0) ?_
    funext a; apply Fin.ext
    match a with
    | ⟨0, _⟩ => show win0_0.index t (0 : Fin 2) * 512 + 1 * p.val = win0_2.index t (0 : Fin 2) * 512 + p.val; omega
    | ⟨1, _⟩ => show win0_0.index t (1 : Fin 2) * 2048 + 1 * k.val = k.val; omega
  -- the weight's staged block is its one row
  have hw : (fun k : Fin 2048 => (iblk m c 1 t : FVec Ideal S1x2048 .f32) (ix2 (0 : Fin 1) k))
      = fun k : Fin 2048 => V m c main_v1 (ix2 (0 : Fin 1) k) := by
    funext k
    show V m c main_v1 (((cfg0.win 1).blk t).view.emb (ix2 (0 : Fin 1) k)) = V m c main_v1 (ix2 (0 : Fin 1) k)
    refine congrArg (V m c main_v1) ?_
    funext a; apply Fin.ext
    match a with
    | ⟨0, _⟩ => show win0_1.index t (0 : Fin 2) * 1 + 1 * 0 = 0; omega
    | ⟨1, _⟩ => show win0_1.index t (1 : Fin 2) * 2048 + 1 * k.val = k.val; omega
  exact congrArg₂ (fun f g => Cert.RmsNorm.entry f g q) hx hw

/-- An index of the result array is in point `t`'s block iff each coordinate is in the block's range on its axis. -/
theorem mem_block (t : Fin cfg0.N) (i : S32768x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v2).slice (win0_2.rect t)).set ↔ _
  rw [View.set_slice_whole, Rect.mem_set_unit]
  exact Iff.rfl

/-- Every index of the result array is in some point's block: row `r` in the block of point `r / 512`. -/
theorem covered (i : S32768x2048.Idx) :
    ∃ t : Fin cfg0.N, (cfg0.win 2).flush t = true ∧ i ∈ ((cfg0.win 2).blk t).view.set := by
  have hi0 : (i 0).val < 32768 := (i 0).isLt
  have hi1 : (i 1).val < 2048 := (i 1).isLt
  obtain ⟨t, ht⟩ := block_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 2048 ≤ (i 1).val ∧ (i 1).val < win0_2.index t (1 : Fin 2) * 2048 + 2048
    omega

/-- THE RESULT ARRAY AFTER THE REGION is the region's first operand normalised row by row with its second. -/
theorem final (c : Dev nD) :
    (dats m 0 c).arrAt 2 cfg0.N = Cert.RmsNorm.flat (V m c main_v0) (V m c main_v1) :=
  (dats m 0 c).arrAt_eq_of_cover 2 _ (fun t _ => flushed_eq m c t) covered

end Cert.KernelIdeal.FlatValue

end
-- ==== Proof.KernelValue.lean ====
/-
  The idealized kernel program's run with its result named: the input cube normalised row by row with the weight.

  Before the region the program re-lays the cube as a flat array of 32768 rows and the weight as one row; the region
  leaves the flat array normalised (`FlatValue.final`); after it the program re-lays the flat result as a cube.
  Normalising the flat re-layout and re-laying the result back is normalising the cube (`Cert.RmsNorm.cube_of_flat`).
-/
import proofs.«165547_g76312978916077_feedfinal_358_2_alg».proof.Proof.FlatValue
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The region finds its first operand holding the input cube re-laid flat. -/
theorem entry_rows (c : Dev nD) :
    (V m c main_v0 : S32768x2048.Idx → EReal)
      = shapeCast S32768x2048 (m ((c : Thread nD τ).loc main_arg0)) shapeCasts_S4x8192x2048_S32768x2048 := by
  show StableHlo.after hostOps0 (fun b => m (c, b)) (Proc.devRef .tc main_v0) = _
  after_results
  rfl

/-- The region finds its second operand holding the weight as one row. -/
theorem entry_weight (c : Dev nD) :
    (V m c main_v1 : S1x2048.Idx → EReal)
      = shapeCast S1x2048 (m ((c : Thread nD τ).loc main_arg1)) shapeCasts_S2048_S1x2048 := by
  show StableHlo.after hostOps0 (fun b => m (c, b)) (Proc.devRef .tc main_v1) = _
  after_results
  rfl

/-- After the region the program's result is the region's result array re-laid as a cube. -/
theorem tail_result (c : Dev nD) :
    (Pipeline.afterTail₀ cfgs (dats m) 0 (V0 m) [hostOps1] c main_v3 : S4x8192x2048.Idx → EReal)
      = shapeCast S4x8192x2048 ((dats m 0 c).arrAt 2 cfg0.N) shapeCasts_S32768x2048_S4x8192x2048 := by
  unfold Pipeline.afterTail₀
  show StableHlo.after hostOps1 _ (Proc.devRef .tc main_v3) = _
  after_results
  -- the re-layout reads the region's result array, which the region leaves at what the pipeline wrote back
  have h2 := Pipeline.withArrays_arr spec0 launch0.win.arr_inj c (V0 m c) (fun w => (dats m 0 c).arrAt w cfg0.N) 2
  exact congrArg (fun A : S32768x2048.Idx → EReal => shapeCast S4x8192x2048 A shapeCasts_S32768x2048_S4x8192x2048) h2

/-- The program's result is the input cube normalised row by row with the weight. -/
theorem result_eq (c : Dev nD) :
    Pipeline.afterTail₀ cfgs (dats m) 0 (V0 m) [hostOps1] c main_v3
      = Cert.RmsNorm.cube (m ((c : Thread nD τ).loc main_arg0)) (m ((c : Thread nD τ).loc main_arg1)) := by
  refine (tail_result m c).trans ?_
  rw [Cert.KernelIdeal.FlatValue.final, entry_rows, entry_weight]
  exact Cert.RmsNorm.cube_of_flat _ _ _ _ _

/-- THE RUN: every weakly fair execution of the idealized kernel program terminates with its result at the normalised
    cube and its arguments unchanged. -/
theorem run : θ_run defs (onTc (τ := τ) (main (F := Ideal))) ⟨m, fun _ => 0, ρ⟩ fun r => ∀ c : Dev nD,
      r.2.mem ((c : Thread nD τ).loc main_v3)
        = Cert.RmsNorm.cube (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KernelValue

end
-- ==== Proof.RefNorm.lean ====
/-
  The reference's result, at the extended reals, is the cube normalised row by row (`Cert.RmsNorm.cube`): it squares
  the input, sums the squares over the feature axis from the initial value zero, divides by 2048, adds `ε`, takes the
  inverse square root, and multiplies the input by that (broadcast along the features) and then by the weight
  (broadcast along the rows).
-/
import proofs.«165547_g76312978916077_feedfinal_358_2_alg».proof.Proof.Gen.ReferenceIdeal.Read
import proofs.«165547_g76312978916077_feedfinal_358_2_alg».proof.Proof.RmsNorm

noncomputable section

namespace Cert.ReferenceIdeal.RefNorm

open Cert.ReferenceIdeal Cert.ReferenceIdeal.Read Idealize.ShloMosaic Idealize.ShloMosaic.ValueIdx

/-- The last stage of the reference, index by index: at `(b, s, d)` the sum runs over row `(b, s)`, the scale is read
    at `(b, s, 0)` of the keepdims column, and the weight at `d`. -/
theorem val_eq_cube (x0 : (⟨S4x8192x2048, .f32⟩ : BufTy).Contents (Elt Ideal))
    (x1 : (⟨S2048, .f32⟩ : BufTy).Contents (Elt Ideal)) :
    val_main_v12 (F := Ideal) x0 x1 = Cert.RmsNorm.cube x0 x1 := by
  funext i
  obtain ⟨b, s, d, rfl⟩ : ∃ (b : Fin 4) (s : Fin 8192) (d : Fin 2048), i = ix3 b s d := ⟨i 0, i 1, i 2, eq_ix3 i⟩
  -- the row the sum runs over, and the weight's index
  have hrow : ∀ k : Fin 2048, idx_main_v1 (idx_main_v2 (idx_main_v8 (ix3 b s d))) k = ix3 b s k := fun k =>
    funext fun a => Fin.ext (by match a with | ⟨0, _⟩ => rfl | ⟨1, _⟩ => rfl | ⟨2, _⟩ => rfl)
  have hw : idx_main_v10 (idx_main_v11 (ix3 b s d)) = ix1 d :=
    funext fun a => Fin.ext (by match a with | ⟨0, _⟩ => rfl)
  rw [val_main_v12_apply, val_main_v9_apply, val_main_v8_apply, val_main_v7_apply, val_main_v6_apply,
    val_main_v4_apply, val_main_v2_apply, val_main_v1_apply, val_main_v3_apply, val_main_v5_apply,
    val_main_v11_apply, val_main_v10_apply, val_main_cst_apply, val_main_cst_0_apply, val_main_cst_1_apply, hw]
  simp only [val_main_v0_apply, hrow, Ideal.mulf_def, Ideal.addf_def, Ideal.hostDivf_def, Ideal.hostUnary_rsqrt_def,
    Ideal.ofBits_def, Ideal.ofBits_zero_f32, zero_add]
  rfl

end Cert.ReferenceIdeal.RefNorm

end
-- ==== Proof.lean ====
/-
  RMS normalisation over the feature axis of a `[4, 8192, 2048]` array, a Pallas kernel against its jnp reference, over
  the extended reals.

  Both programs compute, for each of the 32768 rows `x` and each feature `d`,
  `(x d · (Σₖ xₖ² / 2048 + ε)^(-1/2)) · w d`, with the same float literals for 2048 and `ε`, the same grouping of the two
  products, a quotient by 2048 on both sides and the extended reals' one inverse square root on both sides.  They
  differ only in layout: the kernel re-lays the array as 32768 flat rows, normalises 512 rows per grid point over
  all 2048 features, and re-lays the result back; the reference works on the cube with keepdims broadcasts.  So the
  two results are one function of the arguments (`Cert.RmsNorm.cube`), and no property of the inputs is used.

  The kernel side: the body's stored value entry by entry (Proof/BlockNorm.lean), the result array after the region
  from its 64 blocks (Proof/FlatValue.lean), the re-layouts around the region (Proof/KernelValue.lean).  The reference
  side: its last stage index by index (Proof/RefNorm.lean).  The pure mathematics both meet in is Proof/RmsNorm.lean
  over Proof/LibKeepdims.lean.  The three frames are the generated ones (the reference's is its run with the result
  dropped); the idealization rewrote no operation, so `preserves` is trivial.
-/
import proofs.«165547_g76312978916077_feedfinal_358_2_alg».proof.Defs
import proofs.«165547_g76312978916077_feedfinal_358_2_alg».proof.Proof.Gen.Kernel
import proofs.«165547_g76312978916077_feedfinal_358_2_alg».proof.Proof.Gen.Kernel.Skeleton
import proofs.«165547_g76312978916077_feedfinal_358_2_alg».proof.Proof.Gen.Kernel.Launch
import proofs.«165547_g76312978916077_feedfinal_358_2_alg».proof.Proof.Gen.Kernel.Points
import proofs.«165547_g76312978916077_feedfinal_358_2_alg».proof.Proof.Gen.Kernel.Frame
import proofs.«165547_g76312978916077_feedfinal_358_2_alg».proof.Proof.Gen.KernelIdeal
import proofs.«165547_g76312978916077_feedfinal_358_2_alg».proof.Proof.Gen.KernelIdeal.Skeleton
import proofs.«165547_g76312978916077_feedfinal_358_2_alg».proof.Proof.Gen.KernelIdeal.Launch
import proofs.«165547_g76312978916077_feedfinal_358_2_alg».proof.Proof.Gen.KernelIdeal.Points
import proofs.«165547_g76312978916077_feedfinal_358_2_alg».proof.Proof.Gen.KernelIdeal.Frame
import proofs.«165547_g76312978916077_feedfinal_358_2_alg».proof.Proof.Gen.ReferenceIdeal
import proofs.«165547_g76312978916077_feedfinal_358_2_alg».proof.Proof.Gen.ReferenceIdeal.Run
import proofs.«165547_g76312978916077_feedfinal_358_2_alg».proof.Proof.Gen.ReferenceIdeal.Read
import proofs.«165547_g76312978916077_feedfinal_358_2_alg».proof.Proof.Gen.Pre_finite_inputs
import proofs.«165547_g76312978916077_feedfinal_358_2_alg».proof.Proof.KernelValue
import proofs.«165547_g76312978916077_feedfinal_358_2_alg».proof.Proof.RefNorm
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the cube normalised row by row: the kernel's run names it so, and the reference's last
    stage is it index by index; the arguments agree, so the two results are equal. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefNorm.val_eq_cube, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
